-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S3x128x128 : Shape := ⟨3, ![3, 128, 128]⟩
abbrev S6x128x128 : Shape := ⟨3, ![6, 128, 128]⟩
abbrev S6x1x128 : Shape := ⟨3, ![6, 1, 128]⟩
abbrev S128x128 : Shape := ⟨2, ![128, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S6x128x128 : S_.BroadcastsInDim S6x128x128 (![] : Fin 0 → Fin S6x128x128.rank)
  reducesTo_S6x128x128_S_d0_1_2 : S6x128x128.ReducesTo [0, 1, 2] S_
  bcast_S_S6x1x128 : S_.BroadcastsInDim S6x1x128 (![] : Fin 0 → Fin S6x1x128.rank)
  reducesTo_S6x1x128_S_d0_1_2 : S6x1x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S6x128x128 .f32) (main_arg5 : FVec F S6x1x128 .f32) (main_arg6 : FVec F S128x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S6x128x128 .f32 := Host.absf main_arg4
  let main_cst_6 : FVec F S_ .f32 := constant S_ .f32 0x7F800000#32
  let main_v20 : FVec F S6x128x128 .f32 := broadcastInDim S6x128x128 ![] bcast_S_S6x128x128 main_cst_6
  let main_v21 : IVec S6x128x128 1 := cmpf .olt main_v19 main_v20
  let main_c_7 : IVec S_ 1 := constantI S_ 1 1#1
  let main_v22 : IVec S_ 1 := (fun x v => Host.reduce IntOp.andi x v reducesTo_S6x128x128_S_d0_1_2 h_S_) main_v21 main_c_7
  let main_v23 : IVec S_ 1 := andi main_v18 main_v22
  let main_v24 : FVec F S6x1x128 .f32 := Host.absf main_arg5
  let main_cst_8 : FVec F S_ .f32 := constant S_ .f32 0x7F800000#32
  let main_v25 : FVec F S6x1x128 .f32 := broadcastInDim S6x1x128 ![] bcast_S_S6x1x128 main_cst_8
  let main_v26 : IVec S6x1x128 1 := cmpf .olt main_v24 main_v25
  let main_c_9 : IVec S_ 1 := constantI S_ 1 1#1
  let main_v27 : IVec S_ 1 := (fun x v => Host.reduce IntOp.andi x v reducesTo_S6x1x128_S_d0_1_2 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S131072x128 .f32) (main_arg1 : FVec F S131072x128 .f32) (main_arg2 : FVec F S3x128x128 .f32) (main_arg3 : FVec F S3x128x128 .f32) (main_arg4 : FVec F S6x128x128 .f32) (main_arg5 : FVec F S6x1x128 .f32) (main_arg6 : FVec F S128x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_v13 main_v16
-- ==== Kernel.lean ====
abbrev S131072x128 : Shape := ⟨2, ![131072, 128]⟩
abbrev S3x128x128 : Shape := ⟨3, ![3, 128, 128]⟩
abbrev S6x128x128 : Shape := ⟨3, ![6, 128, 128]⟩
abbrev S6x1x128 : Shape := ⟨3, ![6, 1, 128]⟩
abbrev S128x128 : Shape := ⟨2, ![128, 128]⟩
abbrev S2048x128 : Shape := ⟨2, ![2048, 128]⟩
abbrev S1x128x128 : Shape := ⟨3, ![1, 128, 128]⟩
abbrev S1x1x128 : Shape := ⟨3, ![1, 1, 128]⟩
abbrev S1x128 : Shape := ⟨2, ![1, 128]⟩

abbrev nBuf : Space → Nat
  | .hbm => 8
  | .vmem => 11
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S3x128x128, .f32⟩
  | .hbm, ⟨3, _⟩ => ⟨S3x128x128, .f32⟩
  | .hbm, ⟨4, _⟩ => ⟨S6x128x128, .f32⟩
  | .hbm, ⟨5, _⟩ => ⟨S6x1x128, .f32⟩
  | .hbm, ⟨6, _⟩ => ⟨S128x128, .f32⟩
  | .hbm, ⟨7, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128x128, .f32⟩
  | .local _ .vmem, ⟨5, _⟩ => ⟨S3x128x128, .f32⟩
  | .local _ .vmem, ⟨6, _⟩ => ⟨S6x128x128, .f32⟩
  | .local _ .vmem, ⟨7, _⟩ => ⟨S6x1x128, .f32⟩
  | .local _ .vmem, ⟨8, _⟩ => ⟨S128x128, .f32⟩
  | .local _ .vmem, ⟨9, _⟩ => ⟨S2048x128, .f32⟩
  | .local _ .vmem, ⟨10, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  inb_S6x1x128_S6x1x128_0_0_0 : ∀ a, (![0, 0, 0] : Fin 3 → Nat) a + S6x1x128.size a ≤ S6x1x128.size a
  h_S6x1x128 : 0 < S6x1x128.numel
  bitsLt_bf16_f32 : FTy.bits .bf16 < FTy.bits .f32
  inb_S3x128x128_S3x128x128_0_0_0 : ∀ a, (![0, 0, 0] : Fin 3 → Nat) a + S3x128x128.size a ≤ S3x128x128.size a
  h_S3x128x128 : 0 < S3x128x128.numel
  inb_S6x128x128_S6x128x128_0_0_0 : ∀ a, (![0, 0, 0] : Fin 3 → Nat) a + S6x128x128.size a ≤ S6x128x128.size a
  h_S6x128x128 : 0 < S6x128x128.numel
  inb_S128x128_S128x128_0_0 : ∀ a, (![0, 0] : Fin 2 → Nat) a + S128x128.size a ≤ S128x128.size a
  h_S128x128 : 0 < S128x128.numel
  slices_S3x128x128_o0_0_0_S1x128x128 : S3x128x128.Slices ![0, 0, 0] S1x128x128
  shapeCasts_S1x128x128_S128x128 : S1x128x128.ShapeCasts S128x128
  slices_S6x128x128_o0_0_0_S1x128x128 : S6x128x128.Slices ![0, 0, 0] S1x128x128
  slices_S6x1x128_o0_0_0_S1x1x128 : S6x1x128.Slices ![0, 0, 0] S1x1x128
  shapeCasts_S1x1x128_S1x128 : S1x1x128.ShapeCasts S1x128
  broadcasts_S1x128_S2048x128 : S1x128.Broadcasts S2048x128
  slices_S3x128x128_o1_0_0_S1x128x128 : S3x128x128.Slices ![1, 0, 0] S1x128x128
  slices_S6x128x128_o1_0_0_S1x128x128 : S6x128x128.Slices ![1, 0, 0] S1x128x128
  slices_S6x1x128_o1_0_0_S1x1x128 : S6x1x128.Slices ![1, 0, 0] S1x1x128
  slices_S3x128x128_o2_0_0_S1x128x128 : S3x128x128.Slices ![2, 0, 0] S1x128x128
  slices_S6x128x128_o2_0_0_S1x128x128 : S6x128x128.Slices ![2, 0, 0] S1x128x128
  slices_S6x1x128_o2_0_0_S1x1x128 : S6x1x128.Slices ![2, 0, 0] S1x1x128
  slices_S6x128x128_o4_0_0_S1x128x128 : S6x128x128.Slices ![4, 0, 0] S1x128x128
  slices_S6x1x128_o4_0_0_S1x1x128 : S6x1x128.Slices ![4, 0, 0] S1x1x128
  slices_S6x128x128_o5_0_0_S1x128x128 : S6x128x128.Slices ![5, 0, 0] S1x128x128
  slices_S6x1x128_o5_0_0_S1x1x128 : S6x1x128.Slices ![5, 0, 0] S1x1x128
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128x128.size a ≤ S6x128x128.size a
  hwx0_4 : ∀ i : grid0.Coords, EltTy.bits .f32 = 32 ∨ (Rect.block (s := S6x128x128) S6x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x1x128.size a ≤ S6x1x128.size a
  hwx0_5 : ∀ i : grid0.Coords, EltTy.bits .f32 = 32 ∨ (Rect.block (s := S6x1x128) S6x1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x128 : Shape := ⟨2, ![131072, 128]⟩
abbrev S3x128x128 : Shape := ⟨3, ![3, 128, 128]⟩
abbrev S6x128x128 : Shape := ⟨3, ![6, 128, 128]⟩
abbrev S6x1x128 : Shape := ⟨3, ![6, 1, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S_ : Shape := ⟨0, ![]⟩

abbrev nBuf : Space → Nat
  | .hbm => 125
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S3x128x128, .f32⟩
  | .hbm, ⟨3, _⟩ => ⟨S3x128x128, .f32⟩
  | .hbm, ⟨4, _⟩ => ⟨S6x128x128, .f32⟩
  | .hbm, ⟨5, _⟩ => ⟨S6x1x128, .f32⟩
  | .hbm, ⟨6, _⟩ => ⟨S128x128, .f32⟩
  | .hbm, ⟨7, _⟩ => ⟨S1x128x128, .f32⟩
  | .hbm, ⟨8, _⟩ => ⟨S128x128, .f32⟩
  | .hbm, ⟨9, _⟩ => ⟨S131072x128, .f32⟩
  | .hbm, ⟨10, _⟩ => ⟨S1x128x128, .f32⟩
  | .hbm, ⟨11, _⟩ => ⟨S128x128, .f32⟩
  | .hbm, ⟨12, _⟩ => ⟨S131072x128, .f32⟩
  | .hbm, ⟨13, _⟩ => ⟨S131072x128, .f32⟩
  | .hbm, ⟨14, _⟩ => ⟨S1x1x128, .f32⟩
  | .hbm, ⟨15, _⟩ => ⟨S1x128, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S1x128x128, .f32⟩
  | .hbm, ⟨27, _⟩ => ⟨S128x128, .f32⟩
  | .hbm, ⟨28, _⟩ => ⟨S131072x128, .f32⟩
  | .hbm, ⟨29, _⟩ => ⟨S1x128x128, .f32⟩
  | .hbm, ⟨30, _⟩ => ⟨S128x128, .f32⟩
  | .hbm, ⟨31, _⟩ => ⟨S131072x128, .f32⟩
  | .hbm, ⟨32, _⟩ => ⟨S131072x128, .f32⟩
  | .hbm, ⟨33, _⟩ => ⟨S1x1x128, .f32⟩
  | .hbm, ⟨34, _⟩ => ⟨S1x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S_, .f32⟩
  | .hbm, ⟨40, _⟩ => ⟨S131072x128, .f32⟩
  | .hbm, ⟨41, _⟩ => ⟨S131072x128, .f32⟩
  | .hbm, ⟨42, _⟩ => ⟨S_, .f32⟩
  | .hbm, ⟨43, _⟩ => ⟨S131072x128, .f32⟩
  | .hbm, ⟨44, _⟩ => ⟨S131072x128, .f32⟩
  | .hbm, ⟨45, _⟩ => ⟨S1x128x128, .f32⟩
  | .hbm, ⟨46, _⟩ => ⟨S128x128, .f32⟩
  | .hbm, ⟨47, _⟩ => ⟨S131072x128, .f32⟩
  | .hbm, ⟨48, _⟩ => ⟨S131072x128, .f32⟩
  | .hbm, ⟨49, _⟩ => ⟨S1x128x128, .f32⟩
  | .hbm, ⟨50, _⟩ => ⟨S128x128, .f32⟩
  | .hbm, ⟨51, _⟩ => ⟨S131072x128, .f32⟩
  | .hbm, ⟨52, _⟩ => ⟨S131072x128, .f32⟩
  | .hbm, ⟨53, _⟩ => ⟨S1x1x128, .f32⟩
  | .hbm, ⟨54, _⟩ => ⟨S1x128, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S_, .f32⟩
  | .hbm, ⟨60, _⟩ => ⟨S131072x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S_, .f32⟩
  | .hbm, ⟨66, _⟩ => ⟨S131072x128, .f32⟩
  | .hbm, ⟨67, _⟩ => ⟨S131072x128, .f32⟩
  | .hbm, ⟨68, _⟩ => ⟨S1x128x128, .f32⟩
  | .hbm, ⟨69, _⟩ => ⟨S128x128, .f32⟩
  | .hbm, ⟨70, _⟩ => ⟨S131072x128, .f32⟩
  | .hbm, ⟨71, _⟩ => ⟨S1x128x128, .f32⟩
  | .hbm, ⟨72, _⟩ => ⟨S128x128, .f32⟩
  | .hbm, ⟨73, _⟩ => ⟨S131072x128, .f32⟩
  | .hbm, ⟨74, _⟩ => ⟨S131072x128, .f32⟩
  | .hbm, ⟨75, _⟩ => ⟨S1x1x128, .f32⟩
  | .hbm, ⟨76, _⟩ => ⟨S1x128, .f32⟩
  | .hbm, ⟨77, _⟩ => ⟨S131072x128, .f32⟩
  | .hbm, ⟨78, _⟩ => ⟨S131072x128, .f32⟩
  | .hbm, ⟨79, _⟩ => ⟨S131072x128, .f32⟩
  | .hbm, ⟨80, _⟩ => ⟨S131072x128, .f32⟩
  | .hbm, ⟨81, _⟩ => ⟨S_, .f32⟩
  | .hbm, ⟨82, _⟩ => ⟨S131072x128, .f32⟩
  | .hbm, ⟨83, _⟩ => ⟨S131072x128, .f32⟩
  | .hbm, ⟨84, _⟩ => ⟨S_, .f32⟩
  | .hbm, ⟨85, _⟩ => ⟨S131072x128, .f32⟩
  | .hbm, ⟨86, _⟩ => ⟨S131072x128, .f32⟩
  | .hbm, ⟨87, _⟩ => ⟨S1x128x128, .f32⟩
  | .hbm, ⟨88, _⟩ => ⟨S128x128, .f32⟩
  | .hbm, ⟨89, _⟩ => ⟨S131072x128, .f32⟩
  | .hbm, ⟨90, _⟩ => ⟨S1x128x128, .f32⟩
  | .hbm, ⟨91, _⟩ => ⟨S128x128, .f32⟩
  | .hbm, ⟨92, _⟩ => ⟨S131072x128, .f32⟩
  | .hbm, ⟨93, _⟩ => ⟨S131072x128, .f32⟩
  | .hbm, ⟨94, _⟩ => ⟨S1x1x128, .f32⟩
  | .hbm, ⟨95, _⟩ => ⟨S1x128, .f32⟩
  | .hbm, ⟨96, _⟩ => ⟨S131072x128, .f32⟩
  | .hbm, ⟨97, _⟩ => ⟨S131072x128, .f32⟩
  | .hbm, ⟨98, _⟩ => ⟨S131072x128, .f32⟩
  | .hbm, ⟨99, _⟩ => ⟨S131072x128, .f32⟩
  | .hbm, ⟨100, _⟩ => ⟨S_, .f32⟩
  | .hbm, ⟨101, _⟩ => ⟨S131072x128, .f32⟩
  | .hbm, ⟨102, _⟩ => ⟨S131072x128, .f32⟩
  | .hbm, ⟨103, _⟩ => ⟨S_, .f32⟩
  | .hbm, ⟨104, _⟩ => ⟨S131072x128, .f32⟩
  | .hbm, ⟨105, _⟩ => ⟨S131072x128, .f32⟩
  | .hbm, ⟨106, _⟩ => ⟨S1x128x128, .f32⟩
  | .hbm, ⟨107, _⟩ => ⟨S128x128, .f32⟩
  | .hbm, ⟨108, _⟩ => ⟨S131072x128, .f32⟩
  | .hbm, ⟨109, _⟩ => ⟨S131072x128, .f32⟩
  | .hbm, ⟨110, _⟩ => ⟨S1x128x128, .f32⟩
  | .hbm, ⟨111, _⟩ => ⟨S128x128, .f32⟩
  | .hbm, ⟨112, _⟩ => ⟨S131072x128, .f32⟩
  | .hbm, ⟨113, _⟩ => ⟨S131072x128, .f32⟩
  | .hbm, ⟨114, _⟩ => ⟨S1x1x128, .f32⟩
  | .hbm, ⟨115, _⟩ => ⟨S1x128, .f32⟩
  | .hbm, ⟨116, _⟩ => ⟨S131072x128, .f32⟩
  | .hbm, ⟨117, _⟩ => ⟨S131072x128, .f32⟩
  | .hbm, ⟨118, _⟩ => ⟨S131072x128, .f32⟩
  | .hbm, ⟨119, _⟩ => ⟨S131072x128, .f32⟩
  | .hbm, ⟨120, _⟩ => ⟨S_, .f32⟩
  | .hbm, ⟨121, _⟩ => ⟨S131072x128, .f32⟩
  | .hbm, ⟨122, _⟩ => ⟨S131072x128, .f32⟩
  | .hbm, ⟨123, _⟩ => ⟨S131072x128, .f32⟩
  | .hbm, ⟨124, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call0_cst : Ref sig .tc := ⟨.hbm, 65, rfl⟩
abbrev main_call0_v0 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_4 : Ref sig .tc := ⟨.hbm, 81, rfl⟩
abbrev main_v67 : Ref sig .tc := ⟨.hbm, 82, rfl⟩
abbrev main_v68 : Ref sig .tc := ⟨.hbm, 83, rfl⟩
abbrev main_cst_5 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_6 : Ref sig .tc := ⟨.hbm, 100, rfl⟩
abbrev main_v84 : Ref sig .tc := ⟨.hbm, 101, rfl⟩
abbrev main_v85 : Ref sig .tc := ⟨.hbm, 102, rfl⟩
abbrev main_cst_7 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_8 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S6x128x128_S1x128x128_0_0_0 : S6x128x128.Slices ![0, 0, 0] S1x128x128
  slices_S6x1x128_S1x1x128_0_0_0 : S6x1x128.Slices ![0, 0, 0] S1x1x128
  shapeCasts_S1x1x128_S1x128 : S1x1x128.ShapeCasts S1x128
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  slices_S3x128x128_S1x128x128_1_0_0 : S3x128x128.Slices ![1, 0, 0] S1x128x128
  slices_S6x128x128_S1x128x128_1_0_0 : S6x128x128.Slices ![1, 0, 0] S1x128x128
  slices_S6x1x128_S1x1x128_1_0_0 : S6x1x128.Slices ![1, 0, 0] S1x1x128
  slices_S3x128x128_S1x128x128_2_0_0 : S3x128x128.Slices ![2, 0, 0] S1x128x128
  slices_S6x128x128_S1x128x128_2_0_0 : S6x128x128.Slices ![2, 0, 0] S1x128x128
  slices_S6x1x128_S1x1x128_2_0_0 : S6x1x128.Slices ![2, 0, 0] S1x1x128
  slices_S6x128x128_S1x128x128_4_0_0 : S6x128x128.Slices ![4, 0, 0] S1x128x128
  slices_S6x1x128_S1x1x128_4_0_0 : S6x1x128.Slices ![4, 0, 0] S1x1x128
  slices_S6x128x128_S1x128x128_5_0_0 : S6x128x128.Slices ![5, 0, 0] S1x128x128
  slices_S6x1x128_S1x1x128_5_0_0 : S6x1x128.Slices ![5, 0, 0] S1x1x128
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibRowWise.lean ====
/-
  An [R, C] array of extended reals described ROW BY ROW. `Rows V f` says that the array `V` holds `f p q` at row `p`,
  column `q`. A network that treats the rows of a batch independently of one another (products with fixed weight
  matrices, a bias row added to every row, pointwise nonlinearities) keeps such a description through each of its
  operations whatever the number of rows is, so that a block of rows and the whole batch are read by the same lemmas:

  * pointwise: sum, difference, product, maximum, tanh, the logistic function (as one operation, and spelt
    1 / (1 + exp (-x)) with the float word of 1.0), a change of float format (the identity on extended reals);
  * a product with a [K, C] matrix on the right, by the matrix unit into a zero accumulator and by the host's dot
    product: row p of the result is row p of the left operand times the matrix;
  * matrix number o of a stack [n, K, C], cut out and viewed as [K, C];
  * row number o of a stack [n, 1, C], cut out, viewed as a [1, C] row and repeated down R rows (both spellings of
    the repetition);
  * a scalar repeated over the whole array (both spellings).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«120994_j24713241821345_1_alg».proof.Proof.LibPlainDot

noncomputable section

open scoped BigOperators

namespace Idealize.ShloMosaic.RowWise

open Idealize.ShloMosaic Idealize.ShloMosaic.ValueIdx

/-- The array `V` holds `f p q` at row `p`, column `q`. -/
def Rows {R C : ℕ} (V : (⟨2, ![R, C]⟩ : Shape).Idx → EReal) (f : Fin R → Fin C → EReal) : Prop :=
  ∀ (p : Fin R) (q : Fin C), V (ix2 p q) = f p q

variable {R C : ℕ} {φ : FTy}

/-- Every array is described by its own entries. -/
theorem rows_self (V : (⟨2, ![R, C]⟩ : Shape).Idx → EReal) : Rows V fun p q => V (ix2 p q) := fun _ _ => rfl

/-- A description may be replaced by an equal one. -/
theorem Rows.congr {V : (⟨2, ![R, C]⟩ : Shape).Idx → EReal} {f g : Fin R → Fin C → EReal} (h : Rows V f)
    (e : ∀ p q, f p q = g p q) : Rows V g := fun p q => (h p q).trans (e p q)

/-- Two arrays with one description are equal. -/
theorem Rows.ext {V W : (⟨2, ![R, C]⟩ : Shape).Idx → EReal} {f : Fin R → Fin C → EReal} (hV : Rows V f) (hW : Rows W f) :
    V = W := funext fun j => by
  obtain ⟨p, q, rfl⟩ : ∃ (p : Fin R) (q : Fin C), j = ix2 p q := ⟨j 0, j 1, eq_ix2 j⟩
  exact (hV p q).trans (hW p q).symm

/-! ## Pointwise operations -/

theorem rows_addf {a b : FVec Ideal ⟨2, ![R, C]⟩ φ} {f g : Fin R → Fin C → EReal} (ha : Rows a f) (hb : Rows b g) :
    Rows (addf a b) fun p q => f p q + g p q := fun p q =>
  (addf_apply a b (ix2 p q)).trans (by rw [ha p q, hb p q])

theorem rows_subf {a b : FVec Ideal ⟨2, ![R, C]⟩ φ} {f g : Fin R → Fin C → EReal} (ha : Rows a f) (hb : Rows b g) :
    Rows (subf a b) fun p q => f p q - g p q := fun p q =>
  (subf_apply a b (ix2 p q)).trans (by rw [ha p q, hb p q])

theorem rows_mulf {a b : FVec Ideal ⟨2, ![R, C]⟩ φ} {f g : Fin R → Fin C → EReal} (ha : Rows a f) (hb : Rows b g) :
    Rows (mulf a b) fun p q => f p q * g p q := fun p q =>
  (mulf_apply a b (ix2 p q)).trans (by rw [ha p q, hb p q])

theorem rows_maximumf {a b : FVec Ideal ⟨2, ![R, C]⟩ φ} {f g : Fin R → Fin C → EReal} (ha : Rows a f) (hb : Rows b g) :
    Rows (maximumf a b) fun p q => max (f p q) (g p q) := fun p q =>
  (maximumf_apply a b (ix2 p q)).trans (by rw [ha p q, hb p q])

/-- A narrowing change of float format keeps every entry. -/
theorem rows_truncf {ψ : FTy} {a : FVec Ideal ⟨2, ![R, C]⟩ φ} {f : Fin R → Fin C → EReal} (h : ψ.bits < φ.bits)
    (ha : Rows a f) : Rows (truncf ψ a h : FVec Ideal ⟨2, ![R, C]⟩ ψ) f := fun p q =>
  (truncf_apply a h (ix2 p q)).trans (ha p q)

/-- The kernel's hyperbolic tangent. -/
theorem rows_tanh {a : FVec Ideal ⟨2, ![R, C]⟩ φ} {f : Fin R → Fin C → EReal} (ha : Rows a f) :
    Rows (tanh a) fun p q => Ideal.tanh (f p q) := fun p q =>
  (show tanh a (ix2 p q) = Ideal.tanh (a (ix2 p q)) from rfl).trans (by rw [ha p q])

/-- The host's hyperbolic tangent is the same function. -/
theorem rows_hostTanh {a : FVec Ideal ⟨2, ![R, C]⟩ φ} {f : Fin R → Fin C → EReal} (ha : Rows a f) :
    Rows (Host.tanh a) fun p q => Ideal.tanh (f p q) := fun p q =>
  (show Host.tanh a (ix2 p q) = Ideal.tanh (a (ix2 p q)) from rfl).trans (by rw [ha p q])

/-- The logistic function as one operation. -/
theorem rows_logistic {a : FVec Ideal ⟨2, ![R, C]⟩ φ} {f : Fin R → Fin C → EReal} (ha : Rows a f) :
    Rows (logistic a) fun p q => Ideal.logistic (f p q) := fun p q =>
  (show logistic a (ix2 p q) = Ideal.logistic (a (ix2 p q)) from rfl).trans (by rw [ha p q])

/-- The logistic function spelt out on the host, 1 / (1 + exp (-x)), with both ones the float word of 1.0: on the
    extended reals this IS the logistic function, at the infinities too. -/
theorem rows_hostLogistic {a u v : FVec Ideal ⟨2, ![R, C]⟩ .f32} {f : Fin R → Fin C → EReal} (ha : Rows a f)
    (hu : Rows u fun _ _ => Ideal.ofBits .f32 0x3F800000#32) (hv : Rows v fun _ _ => Ideal.ofBits .f32 0x3F800000#32) :
    Rows (Host.divf u (addf v (Host.exp (Host.negf a)))) fun p q => Ideal.logistic (f p q) := fun p q => by
  show FloatOps.hostDivf (u (ix2 p q)) (FloatOps.addf (v (ix2 p q)) (FloatOps.hostUnary .exp (FloatOps.hostNegf (a (ix2 p q))))) = _
  rw [hu p q, hv p q, ha p q, Ideal.ofBits_one_f32]
  rfl

/-! ## Products with a matrix on the right -/

/-- The matrix unit into a zero accumulator: row p of the result is row p of the left operand times the matrix. -/
theorem rows_matmul {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (matmul D prec l r (constant ⟨2, ![R, C]⟩ .f32 0x00000000#32)) fun p q => ∑ k : Fin K, f p k * w k q := fun p q =>
  (PlainDot.matmul_zero_apply hD prec l r p q).trans (Finset.sum_congr rfl fun k _ => by rw [hl p k, hr k q])

/-- The host's dot product: the same sum. -/
theorem rows_dotGeneral {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (Host.dotGeneral D prec l r) fun p q => ∑ k : Fin K, f p k * w k q := fun p q =>
  (PlainDot.dotGeneral_apply hD prec .single l r p q).trans (Finset.sum_congr rfl fun k _ => by rw [hl p k, hr k q])

/-! ## Pieces of stacked parameters -/

/-- Matrix number `o` of a stack of `n` matrices, cut out as a [1, K, C] block and viewed as [K, C]. -/
theorem rows_stackedMatrix {n K : ℕ} (W : (⟨3, ![n, K, C]⟩ : Shape).Idx → EReal) (o : Fin n)
    (hs : (⟨3, ![n, K, C]⟩ : Shape).Slices ![o.val, 0, 0] ⟨3, ![1, K, C]⟩)
    (hc : (⟨3, ![1, K, C]⟩ : Shape).ShapeCasts ⟨2, ![K, C]⟩) :
    Rows (shapeCast ⟨2, ![K, C]⟩ (extractStridedSlice ⟨3, ![1, K, C]⟩ ![o.val, 0, 0] W hs) hc) fun k q => W (ix3 o k q) :=
  fun k q => (shapeCast_1ab_ab_apply _ hc k q).trans
    (extractStridedSlice_apply _ W hs _ (ix3 o k q) fun a => match a with
      | ⟨0, _⟩ => rfl
      | ⟨1, _⟩ => (Nat.zero_add _).symm
      | ⟨2, _⟩ => (Nat.zero_add _).symm)

/-- A [1, 1, C] block viewed as a [1, C] row keeps its entries. -/
theorem shapeCast_11c_1c_apply {α : Type} (x : (⟨3, ![1, 1, C]⟩ : Shape).Idx → α)
    (h : (⟨3, ![1, 1, C]⟩ : Shape).ShapeCasts ⟨2, ![1, C]⟩) (p : Fin 1) (q : Fin C) :
    shapeCast ⟨2, ![1, C]⟩ x h (ix2 p q) = x (ix3 (0 : Fin 1) (0 : Fin 1) q) :=
  shapeCast_apply x h _ _ (by
    have hp : p.val = 0 := by omega
    rw [Shape.rowMajor_val_three, Shape.rowMajor_val_two]
    show (0 * 1 + 0) * C + q.val = p.val * C + q.val
    rw [hp])

/-- Row number `o` of a stack [n, 1, C] at column `q`, after it is cut out and viewed as a [1, C] row. -/
theorem stackedRow_apply {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩) (q : Fin C) :
    shapeCast ⟨2, ![1, C]⟩ (extractStridedSlice ⟨3, ![1, 1, C]⟩ ![o.val, 0, 0] b hs) hc (ix2 (0 : Fin 1) q)
      = b (ix3 o (0 : Fin 1) q) :=
  (shapeCast_11c_1c_apply _ hc 0 q).trans
    (extractStridedSlice_apply _ b hs _ (ix3 o (0 : Fin 1) q) fun a => match a with
      | ⟨0, _⟩ => rfl
      | ⟨1, _⟩ => rfl
      | ⟨2, _⟩ => (Nat.zero_add _).symm)

/-- That row repeated down `R` rows by the kernel's broadcast. -/
theorem rows_stackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).Broadcasts ⟨2, ![R, C]⟩) :
    Rows (broadcastTo ⟨2, ![R, C]⟩ (shapeCast ⟨2, ![1, C]⟩ (extractStridedSlice ⟨3, ![1, 1, C]⟩ ![o.val, 0, 0] b hs) hc) hb)
      fun _ q => b (ix3 o (0 : Fin 1) q) :=
  fun p q => (broadcastTo_1b_ab_apply _ hb p q).trans (stackedRow_apply b o hs hc q)

/-- A [1, C] row repeated down `R` rows by the host's broadcast along both axes. -/
theorem broadcastInDim_1c_rc_apply {α : Type} (v : (⟨2, ![1, C]⟩ : Shape).Idx → α)
    (h : (⟨2, ![1, C]⟩ : Shape).BroadcastsInDim ⟨2, ![R, C]⟩ ![0, 1]) (p : Fin R) (q : Fin C) :
    broadcastInDim ⟨2, ![R, C]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if C = 1 then 0 else q.val
    split
    · have := q.isLt; omega
    · rfl

/-- The stack's row repeated down `R` rows by the host's broadcast. -/
theorem rows_hostStackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).BroadcastsInDim ⟨2, ![R, C]⟩ ![0, 1]) :
    Rows (broadcastInDim ⟨2, ![R, C]⟩ ![0, 1] hb (shapeCast ⟨2, ![1, C]⟩ (extractStridedSlice ⟨3, ![1, 1, C]⟩ ![o.val, 0, 0] b hs) hc))
      fun _ q => b (ix3 o (0 : Fin 1) q) :=
  fun p q => (broadcastInDim_1c_rc_apply _ hb p q).trans (stackedRow_apply b o hs hc q)

/-! ## A scalar over the whole array -/

/-- The kernel's splat of a scalar. -/
theorem rows_broadcast (x : EReal) : Rows (broadcast ⟨2, ![R, C]⟩ x) fun _ _ => x := fun _ _ => rfl

/-- The host's broadcast of a rank-0 constant. -/
theorem rows_hostConstant (w : BitVec (FTy.bits φ)) (h : (⟨0, ![]⟩ : Shape).BroadcastsInDim ⟨2, ![R, C]⟩ ![]) :
    Rows (broadcastInDim ⟨2, ![R, C]⟩ ![] h (constant (F := Ideal) ⟨0, ![]⟩ φ w)) fun _ _ => Ideal.ofBits φ w :=
  fun p q => broadcastInDim_apply ![] h _ (ix2 p q) ix0 fun a => a.elim0

end Idealize.ShloMosaic.RowWise

end
-- ==== Proof.GruRow.lean ====
/-
  The double GRU cell on ONE row of the batch, over the extended reals.

  A row `x` of the input and the matching row `h` of the old state (128 entries each) are sent through two gated
  stages that share the state-side weights. With `a · W` the row times a 128 by 128 matrix, `σ` the logistic
  function, and `1` and `0` the values of the float words of 1.0 and 0.0:

      z  = σ (x · Wx1[0] + h · Wh[0] + b[0])          r  = σ (x · Wx1[1] + h · Wh[1] + b[1])
      t  = tanh (x · Wx1[2] + (r ∘ h) · Wh[2] + b[2])  h' = z ∘ h + (1 - z) ∘ t
      x' = max (h' · mid) 0
      z2 = σ (x' · Wx2[0] + h' · Wh[0] + b[0])         r2 = σ (x' · Wx2[1] + h' · Wh[4] + b[4])
      t2 = tanh (x' · Wx2[2] + (r2 ∘ h') · Wh[5] + b[5])   out = z2 ∘ h' + (1 - z2) ∘ t2

  (`∘` entry by entry). Nothing here depends on the number of rows in the batch: the batch is this function applied
  to each row, which is why a block of rows of the result is the result of the block of rows.
-/
import Idealize.ShloMosaic.Lib.ValueIdx

noncomputable section

open scoped BigOperators

namespace Cert.Gru

open Idealize.ShloMosaic Idealize.ShloMosaic.ValueIdx

/-- A row of 128 entries. -/
abbrev Row : Type := Fin 128 → EReal
/-- A 128 by 128 matrix. -/
abbrev Mat : Type := Fin 128 → Fin 128 → EReal

/-- Row `p` of an array with 128 columns. -/
abbrev rowAt {R : ℕ} (X : (⟨2, ![R, 128]⟩ : Shape).Idx → EReal) (p : Fin R) : Row := fun k => X (ix2 p k)
/-- A [128, 128] array as a matrix. -/
abbrev mat (M : (⟨2, ![128, 128]⟩ : Shape).Idx → EReal) : Mat := fun k q => M (ix2 k q)
/-- A stack [n, 128, 128] as a family of matrices. -/
abbrev mats {n : ℕ} (W : (⟨3, ![n, 128, 128]⟩ : Shape).Idx → EReal) : Fin n → Mat := fun o k q => W (ix3 o k q)
/-- A stack [n, 1, 128] as a family of rows. -/
abbrev rowsOf {n : ℕ} (b : (⟨3, ![n, 1, 128]⟩ : Shape).Idx → EReal) : Fin n → Row := fun o q => b (ix3 o (0 : Fin 1) q)

/-- A row times a matrix. -/
def lin (a : Row) (W : Mat) : Row := fun q => ∑ k : Fin 128, a k * W k q

/-- What a gate applies its nonlinearity to: two rows through their matrices, plus a bias row. -/
def pre (a c : Row) (Wa Wc : Mat) (b : Row) : Row := fun q => lin a Wa q + lin c Wc q + b q

/-- A logistic gate. -/
def sgate (a c : Row) (Wa Wc : Mat) (b : Row) : Row := fun q => Ideal.logistic (pre a c Wa Wc b q)

/-- A tanh gate. -/
def tgate (a c : Row) (Wa Wc : Mat) (b : Row) : Row := fun q => Ideal.tanh (pre a c Wa Wc b q)

/-- A gate applied to a row, entry by entry. -/
def gated (r h : Row) : Row := fun k => r k * h k

/-- The convex mix `z ∘ h + (1 - z) ∘ t`, the one being the float word of 1.0. -/
def blend (z h t : Row) : Row := fun q => z q * h q + (Ideal.ofBits .f32 0x3F800000#32 - z q) * t q

/-- The positive part, against the float word of 0.0. -/
def relu (a : Row) : Row := fun q => max (a q) (Ideal.ofBits .f32 0x00000000#32)

/-- The cell's parameters. -/
structure Params where
  Wx1 : Fin 3 → Mat
  Wx2 : Fin 3 → Mat
  Wh : Fin 6 → Mat
  b : Fin 6 → Row
  mid : Mat

/-- The parameters read off the five parameter arrays. -/
abbrev params (W1 W2 : (⟨3, ![3, 128, 128]⟩ : Shape).Idx → EReal) (Wh : (⟨3, ![6, 128, 128]⟩ : Shape).Idx → EReal)
    (b : (⟨3, ![6, 1, 128]⟩ : Shape).Idx → EReal) (mid : (⟨2, ![128, 128]⟩ : Shape).Idx → EReal) : Params :=
  ⟨mats W1, mats W2, mats Wh, rowsOf b, mat mid⟩

namespace Params

variable (P : Params) (x h : Row)

def z1 : Row := sgate x h (P.Wx1 0) (P.Wh 0) (P.b 0)
def r1 : Row := sgate x h (P.Wx1 1) (P.Wh 1) (P.b 1)
def t1 : Row := tgate x (gated (P.r1 x h) h) (P.Wx1 2) (P.Wh 2) (P.b 2)
/-- The state after the first stage. -/
def midH : Row := blend (P.z1 x h) h (P.t1 x h)
/-- The second stage's input. -/
def midX : Row := relu (lin (P.midH x h) P.mid)
def z2 : Row := sgate (P.midX x h) (P.midH x h) (P.Wx2 0) (P.Wh 0) (P.b 0)
def r2 : Row := sgate (P.midX x h) (P.midH x h) (P.Wx2 1) (P.Wh 4) (P.b 4)
def t2 : Row := tgate (P.midX x h) (gated (P.r2 x h) (P.midH x h)) (P.Wx2 2) (P.Wh 5) (P.b 5)
/-- The new state. -/
def out : Row := blend (P.z2 x h) (P.midH x h) (P.t2 x h)

end Params

/-- The batch: the cell applied to every row of the two [R, 128] arrays. -/
def batch {R : ℕ} (X H : (⟨2, ![R, 128]⟩ : Shape).Idx → EReal) (P : Params) : (⟨2, ![R, 128]⟩ : Shape).Idx → EReal :=
  fun i => P.out (rowAt X (i 0)) (rowAt H (i 0)) (i 1)

/-- The batch at row `p`, column `q`. -/
theorem batch_apply {R : ℕ} (X H : (⟨2, ![R, 128]⟩ : Shape).Idx → EReal) (P : Params) (p : Fin R) (q : Fin 128) :
    batch X H P (ix2 p q) = P.out (rowAt X p) (rowAt H p) q := rfl

end Cert.Gru

end
-- ==== Proof.KernelRows.lean ====
/-
  The kernel's body on one block of 2048 rows, read row by row: what it stores is the double GRU cell of each row of
  the block of `x` and the matching row of the block of the old state, with the parameters the five resident
  parameter arrays hold. The body's changes of float format (to bf16 before each product) are the identity on the
  extended reals, its matrix unit into a zero accumulator is the plain sum over the contracted index, and each
  weight matrix and bias row is cut out of its stack.
-/
import proofs.«120994_j24713241821345_1_alg».proof.Proof.Gen.KernelIdeal.Skeleton
import proofs.«120994_j24713241821345_1_alg».proof.Proof.LibRowWise
import proofs.«120994_j24713241821345_1_alg».proof.Proof.GruRow

noncomputable section

namespace Cert.KernelIdeal.Body

open Cert.KernelIdeal Cert.KernelIdeal.Gen
open Idealize.ShloMosaic Idealize.ShloMosaic.ValueIdx Idealize.ShloMosaic.RowWise Cert.Gru

/-- The body's products are plain: rows of the left operand against columns of the right one. -/
theorem plain : PlainDot.IsPlain dot_S2048x128_S128x128_S2048x128_1_0_0_1_n_n := ⟨rfl, rfl, rfl, rfl, rfl, rfl⟩

/-- What every gate of the body applies its nonlinearity to: two row-described operands through matrices cut out
    of two stacks, plus a bias row cut out of the bias stack and repeated down the block. -/
theorem rows_pre {φa φc : FTy} {a : FVec Ideal S2048x128 φa} {c : FVec Ideal S2048x128 φc} {A Cc : Fin 2048 → Row}
    (ha : Rows a A) (hc : Rows c Cc) {n1 n2 : ℕ}
    (W1 : FVec Ideal ⟨3, ![n1, 128, 128]⟩ .bf16) (o1 : Fin n1) (hs1 : (⟨3, ![n1, 128, 128]⟩ : Shape).Slices ![o1.val, 0, 0] S1x128x128)
    (W2 : FVec Ideal ⟨3, ![n2, 128, 128]⟩ .bf16) (o2 : Fin n2) (hs2 : (⟨3, ![n2, 128, 128]⟩ : Shape).Slices ![o2.val, 0, 0] S1x128x128)
    (b : Vec Ideal S6x1x128 .f32) (ob : Fin 6) (hsb : S6x1x128.Slices ![ob.val, 0, 0] S1x1x128) :
    Rows (addf (addf
        (matmul dot_S2048x128_S128x128_S2048x128_1_0_0_1_n_n none a
          (shapeCast S128x128 (extractStridedSlice S1x128x128 ![o1.val, 0, 0] W1 hs1) shapeCasts_S1x128x128_S128x128)
          (constant S2048x128 .f32 0x00000000#32))
        (matmul dot_S2048x128_S128x128_S2048x128_1_0_0_1_n_n none c
          (shapeCast S128x128 (extractStridedSlice S1x128x128 ![o2.val, 0, 0] W2 hs2) shapeCasts_S1x128x128_S128x128)
          (constant S2048x128 .f32 0x00000000#32)))
        (broadcastTo S2048x128 (shapeCast S1x128 (extractStridedSlice S1x1x128 ![ob.val, 0, 0] b hsb) shapeCasts_S1x1x128_S1x128)
          broadcasts_S1x128_S2048x128))
      fun p => pre (A p) (Cc p) (mats W1 o1) (mats W2 o2) (rowsOf b ob) :=
  rows_addf (rows_addf
      (rows_matmul plain none ha (rows_stackedMatrix W1 o1 hs1 shapeCasts_S1x128x128_S128x128))
      (rows_matmul plain none hc (rows_stackedMatrix W2 o2 hs2 shapeCasts_S1x128x128_S128x128)))
    (rows_stackedRow b ob hsb shapeCasts_S1x1x128_S1x128 broadcasts_S1x128_S2048x128)

variable (x0 x1 : Vec Ideal S2048x128 .f32) (x2 x3 : Vec Ideal S3x128x128 .f32) (x4 : Vec Ideal S6x128x128 .f32)
  (x5 : Vec Ideal S6x1x128 .f32) (x6 : Vec Ideal S128x128 .f32)

/-- The block of `x`, narrowed, row by row. -/
theorem rows_x : Rows (k0_pay2 x0) fun p => rowAt x0 p := rows_truncf bitsLt_bf16_f32 (rows_self x0)
/-- The block of the old state, narrowed, row by row. -/
theorem rows_h : Rows (k0_pay3 x1) fun p => rowAt x1 p := rows_truncf bitsLt_bf16_f32 (rows_self x1)

/-- The first stage's update gate. -/
theorem rows_z1 : Rows (k0_pay8 x0 x1 x5 x2 x4) fun p => (params x2 x3 x4 x5 x6).z1 (rowAt x0 p) (rowAt x1 p) :=
  rows_logistic (rows_pre (rows_x x0) (rows_h x1) (k0_pay4 x2) 0 _ (k0_pay6 x4) 0 _ x5 0 _)

/-- The first stage's reset gate. -/
theorem rows_r1 : Rows (k0_pay9 x0 x1 x5 x2 x4) fun p => (params x2 x3 x4 x5 x6).r1 (rowAt x0 p) (rowAt x1 p) :=
  rows_logistic (rows_pre (rows_x x0) (rows_h x1) (k0_pay4 x2) 1 _ (k0_pay6 x4) 1 _ x5 1 _)

/-! ## The body's named intermediate values, as the store's payload nests them -/

/-- The first stage's update gate on the block. -/
abbrev vZ1 : FVec Ideal S2048x128 .f32 := k0_pay8 x0 x1 x5 x2 x4
/-- The first stage's reset gate on the block. -/
abbrev vR1 : FVec Ideal S2048x128 .f32 := k0_pay9 x0 x1 x5 x2 x4
/-- The state after the first stage. -/
abbrev vMidH : FVec Ideal S2048x128 .f32 :=
  k0_pay10 x1 x5 (k0_pay2 x0) (k0_pay4 x2) (k0_pay6 x4) (vZ1 x0 x1 x2 x4 x5) (vR1 x0 x1 x2 x4 x5)
/-- The same, narrowed for the matrix unit. -/
abbrev vMidH16 : FVec Ideal S2048x128 .bf16 :=
  k0_pay11 x1 x5 (k0_pay2 x0) (k0_pay4 x2) (k0_pay6 x4) (vZ1 x0 x1 x2 x4 x5) (vR1 x0 x1 x2 x4 x5)
/-- The second stage's input, narrowed. -/
abbrev vMidX : FVec Ideal S2048x128 .bf16 :=
  k0_pay12 x1 x5 (k0_pay2 x0) (k0_pay4 x2) (k0_pay6 x4) (k0_pay7 x6) (vZ1 x0 x1 x2 x4 x5) (vR1 x0 x1 x2 x4 x5)
/-- The second stage's update gate. -/
abbrev vZ2 : FVec Ideal S2048x128 .f32 :=
  k0_pay13 x1 x5 (k0_pay2 x0) (k0_pay4 x2) (k0_pay5 x3) (k0_pay6 x4) (k0_pay7 x6) (vZ1 x0 x1 x2 x4 x5) (vR1 x0 x1 x2 x4 x5)
/-- The second stage's reset gate applied to the state, narrowed. -/
abbrev vR2H : FVec Ideal S2048x128 .bf16 :=
  k0_pay14 x1 x5 (k0_pay2 x0) (k0_pay4 x2) (k0_pay5 x3) (k0_pay6 x4) (k0_pay7 x6) (vZ1 x0 x1 x2 x4 x5) (vR1 x0 x1 x2 x4 x5)
/-- What the body stores. -/
abbrev stored : FVec Ideal S2048x128 .f32 :=
  k0_pay1 x5 (k0_pay6 x4) (vMidH x0 x1 x2 x4 x5) (vMidX x0 x1 x2 x4 x5 x6) (vZ2 x0 x1 x2 x3 x4 x5 x6) (vR2H x0 x1 x2 x3 x4 x5 x6)
    (k0_pay15 (k0_pay5 x3))

/-- The state after the first stage: the update gate mixes the old state with the candidate, whose state-side
    operand is the reset gate applied to the old state. -/
theorem rows_midH : Rows (vMidH x0 x1 x2 x4 x5) fun p => (params x2 x3 x4 x5 x6).midH (rowAt x0 p) (rowAt x1 p) :=
  rows_addf (rows_mulf (rows_z1 x0 x1 x2 x3 x4 x5 x6) (rows_self x1))
    (rows_mulf (rows_subf (rows_broadcast _) (rows_z1 x0 x1 x2 x3 x4 x5 x6))
      (rows_tanh (rows_pre (rows_x x0)
        (rows_truncf bitsLt_bf16_f32 (rows_mulf (rows_r1 x0 x1 x2 x3 x4 x5 x6) (rows_self x1)))
        (k0_pay4 x2) 2 _ (k0_pay6 x4) 2 _ x5 2 _)))

/-- Narrowing it changes nothing. -/
theorem rows_midH16 : Rows (vMidH16 x0 x1 x2 x4 x5) fun p => (params x2 x3 x4 x5 x6).midH (rowAt x0 p) (rowAt x1 p) :=
  rows_truncf bitsLt_bf16_f32 (rows_midH x0 x1 x2 x3 x4 x5 x6)

/-- The second stage's input: the positive part of the state through the middle matrix. -/
theorem rows_midX : Rows (vMidX x0 x1 x2 x4 x5 x6) fun p => (params x2 x3 x4 x5 x6).midX (rowAt x0 p) (rowAt x1 p) :=
  rows_truncf bitsLt_bf16_f32 (rows_maximumf
    (rows_matmul plain none (rows_midH16 x0 x1 x2 x3 x4 x5 x6) (rows_truncf bitsLt_bf16_f32 (rows_self x6)))
    (rows_broadcast _))

/-- The second stage's update gate (it reuses the first stage's state-side matrix and bias). -/
theorem rows_z2 : Rows (vZ2 x0 x1 x2 x3 x4 x5 x6) fun p => (params x2 x3 x4 x5 x6).z2 (rowAt x0 p) (rowAt x1 p) :=
  rows_logistic (rows_pre (rows_midX x0 x1 x2 x3 x4 x5 x6) (rows_midH16 x0 x1 x2 x3 x4 x5 x6)
    (k0_pay5 x3) 0 _ (k0_pay6 x4) 0 _ x5 0 _)

/-- The second stage's reset gate applied to the state. -/
theorem rows_r2h : Rows (vR2H x0 x1 x2 x3 x4 x5 x6) fun p =>
    gated ((params x2 x3 x4 x5 x6).r2 (rowAt x0 p) (rowAt x1 p)) ((params x2 x3 x4 x5 x6).midH (rowAt x0 p) (rowAt x1 p)) :=
  rows_truncf bitsLt_bf16_f32 (rows_mulf
    (rows_logistic (rows_pre (rows_midX x0 x1 x2 x3 x4 x5 x6) (rows_midH16 x0 x1 x2 x3 x4 x5 x6)
      (k0_pay5 x3) 1 _ (k0_pay6 x4) 4 _ x5 4 _))
    (rows_midH x0 x1 x2 x3 x4 x5 x6))

/-- WHAT THE BODY STORES, row by row: the cell of the block's row of `x` and row of the old state. -/
theorem rows_stored : Rows (stored x0 x1 x2 x3 x4 x5 x6) fun p => (params x2 x3 x4 x5 x6).out (rowAt x0 p) (rowAt x1 p) :=
  rows_addf (rows_mulf (rows_z2 x0 x1 x2 x3 x4 x5 x6) (rows_midH x0 x1 x2 x3 x4 x5 x6))
    (rows_mulf (rows_subf (rows_broadcast _) (rows_z2 x0 x1 x2 x3 x4 x5 x6))
      (rows_tanh (rows_pre (rows_midX x0 x1 x2 x3 x4 x5 x6) (rows_r2h x0 x1 x2 x3 x4 x5 x6)
        (k0_pay5 x3) 2 slices_S3x128x128_o2_0_0_S1x128x128 (k0_pay6 x4) 5 _ x5 5 _)))

end Cert.KernelIdeal.Body

end
-- ==== Proof.Blocks.lean ====
/-
  From blocks to the whole array. The grid's 64 points each take rows 2048 t … 2048 t + 2047 of `x` and of the old
  state, the five parameter arrays whole, and write back rows 2048 t … 2048 t + 2047 of the result. Because the cell
  treats rows independently, what point t writes back is exactly block t of the batch of cells over the whole arrays;
  the 64 blocks tile the result array, so after the run it holds the batch of cells.
-/
import proofs.«120994_j24713241821345_1_alg».proof.Proof.Gen.KernelIdeal.Value
import proofs.«120994_j24713241821345_1_alg».proof.Proof.KernelRows

noncomputable section

namespace Cert.KernelIdeal.Blocks

open Cert.KernelIdeal Cert.KernelIdeal.Gen Cert.KernelIdeal.Value Cert.KernelIdeal.Body
open Idealize.ShloMosaic Idealize.ShloMosaic.TcCoe Idealize.SL.Sem
open Idealize.ShloMosaic.ValueIdx Idealize.ShloMosaic.RowWise Cert.Gru
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The seven argument arrays as the region finds them, at their literal shapes. -/
abbrev aX (c : Dev nD) : S131072x128.Idx → EReal := V m c main_arg0
abbrev aH (c : Dev nD) : S131072x128.Idx → EReal := V m c main_arg1
abbrev aW1 (c : Dev nD) : S3x128x128.Idx → EReal := V m c main_arg2
abbrev aW2 (c : Dev nD) : S3x128x128.Idx → EReal := V m c main_arg3
abbrev aWh (c : Dev nD) : S6x128x128.Idx → EReal := V m c main_arg4
abbrev aB (c : Dev nD) : S6x1x128.Idx → EReal := V m c main_arg5
abbrev aMid (c : Dev nD) : S128x128.Idx → EReal := V m c main_arg6

/-- What the result array ends holding: the cell of every row. -/
abbrev result (c : Dev nD) : S131072x128.Idx → EReal :=
  batch (R := 131072) (aX m c) (aH m c) (params (aW1 m c) (aW2 m c) (aWh m c) (aB m c) (aMid m c))

/-- The printed index maps, decided over the 64 points: the two batch inputs and the output move with the point
    along the rows, and every parameter array is one block. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The block of `x` at point t holds, at (p, k), row 2048 t + p of `x` at k. -/
theorem blockX_apply (c : Dev nD) (t : Fin cfg0.N) (p : Fin 2048) (k : Fin 128) (r : Fin 131072) (hr : r.val = t.val * 2048 + p.val) :
    (iblk m c 0 t : S2048x128.Idx → EReal) (ix2 p k) = aX m c (ix2 r k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * p.val = r.val; rw [e0, hr]; omega
  | ⟨1, _⟩ => show win0_0.index t (1 : Fin 2) * 128 + 1 * k.val = k.val; rw [e1]; omega

/-- The block of the old state likewise. -/
theorem blockH_apply (c : Dev nD) (t : Fin cfg0.N) (p : Fin 2048) (k : Fin 128) (r : Fin 131072) (hr : r.val = t.val * 2048 + p.val) :
    (iblk m c 1 t : S2048x128.Idx → EReal) (ix2 p k) = aH m c (ix2 r k) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 2048 + 1 * p.val = r.val; rw [e0, hr]; omega
  | ⟨1, _⟩ => show win0_1.index t (1 : Fin 2) * 128 + 1 * k.val = k.val; rw [e1]; omega

/-- Each parameter array's one block is the array. -/
theorem blockW1_eq (c : Dev nD) (t : Fin cfg0.N) : (iblk m c 2 t : S3x128x128.Idx → EReal) = aW1 m c := by
  obtain ⟨-, -, -, -, e0, e1, e2, -⟩ := idx_facts t
  funext x
  unfold iblk
  rw [View.read_apply]
  show V m c main_arg2 _ = V m c main_arg2 x
  refine congrArg (V m c main_arg2) (funext fun a => Fin.ext ?_)
  match a with
  | ⟨0, _⟩ => show win0_2.index t (0 : Fin 3) * 3 + 1 * (x 0).val = (x 0).val; rw [e0]; omega
  | ⟨1, _⟩ => show win0_2.index t (1 : Fin 3) * 128 + 1 * (x 1).val = (x 1).val; rw [e1]; omega
  | ⟨2, _⟩ => show win0_2.index t (2 : Fin 3) * 128 + 1 * (x 2).val = (x 2).val; rw [e2]; omega

theorem blockW2_eq (c : Dev nD) (t : Fin cfg0.N) : (iblk m c 3 t : S3x128x128.Idx → EReal) = aW2 m c := by
  obtain ⟨-, -, -, -, -, -, -, e0, e1, e2, -⟩ := idx_facts t
  funext x
  unfold iblk
  rw [View.read_apply]
  show V m c main_arg3 _ = V m c main_arg3 x
  refine congrArg (V m c main_arg3) (funext fun a => Fin.ext ?_)
  match a with
  | ⟨0, _⟩ => show win0_3.index t (0 : Fin 3) * 3 + 1 * (x 0).val = (x 0).val; rw [e0]; omega
  | ⟨1, _⟩ => show win0_3.index t (1 : Fin 3) * 128 + 1 * (x 1).val = (x 1).val; rw [e1]; omega
  | ⟨2, _⟩ => show win0_3.index t (2 : Fin 3) * 128 + 1 * (x 2).val = (x 2).val; rw [e2]; omega

theorem blockWh_eq (c : Dev nD) (t : Fin cfg0.N) : (iblk m c 4 t : S6x128x128.Idx → EReal) = aWh m c := by
  obtain ⟨-, -, -, -, -, -, -, -, -, -, e0, e1, e2, -⟩ := idx_facts t
  funext x
  unfold iblk
  rw [View.read_apply]
  show V m c main_arg4 _ = V m c main_arg4 x
  refine congrArg (V m c main_arg4) (funext fun a => Fin.ext ?_)
  match a with
  | ⟨0, _⟩ => show win0_4.index t (0 : Fin 3) * 6 + 1 * (x 0).val = (x 0).val; rw [e0]; omega
  | ⟨1, _⟩ => show win0_4.index t (1 : Fin 3) * 128 + 1 * (x 1).val = (x 1).val; rw [e1]; omega
  | ⟨2, _⟩ => show win0_4.index t (2 : Fin 3) * 128 + 1 * (x 2).val = (x 2).val; rw [e2]; omega

theorem blockB_eq (c : Dev nD) (t : Fin cfg0.N) : (iblk m c 5 t : S6x1x128.Idx → EReal) = aB m c := by
  obtain ⟨-, -, -, -, -, -, -, -, -, -, -, -, -, e0, e1, e2, -⟩ := idx_facts t
  funext x
  unfold iblk
  rw [View.read_apply]
  show V m c main_arg5 _ = V m c main_arg5 x
  refine congrArg (V m c main_arg5) (funext fun a => Fin.ext ?_)
  match a with
  | ⟨0, _⟩ => show win0_5.index t (0 : Fin 3) * 6 + 1 * (x 0).val = (x 0).val; rw [e0]; omega
  | ⟨1, _⟩ => show win0_5.index t (1 : Fin 3) * 1 + 1 * (x 1).val = (x 1).val; rw [e1]; omega
  | ⟨2, _⟩ => show win0_5.index t (2 : Fin 3) * 128 + 1 * (x 2).val = (x 2).val; rw [e2]; omega

theorem blockMid_eq (c : Dev nD) (t : Fin cfg0.N) : (iblk m c 6 t : S128x128.Idx → EReal) = aMid m c := by
  obtain ⟨-, -, -, -, -, -, -, -, -, -, -, -, -, -, -, -, e0, e1, -⟩ := idx_facts t
  funext x
  unfold iblk
  rw [View.read_apply]
  show V m c main_arg6 _ = V m c main_arg6 x
  refine congrArg (V m c main_arg6) (funext fun a => Fin.ext ?_)
  match a with
  | ⟨0, _⟩ => show win0_6.index t (0 : Fin 2) * 128 + 1 * (x 0).val = (x 0).val; rw [e0]; omega
  | ⟨1, _⟩ => show win0_6.index t (1 : Fin 2) * 128 + 1 * (x 1).val = (x 1).val; rw [e1]; omega

/-- The cell of a row depends on the two rows only through their entries. -/
theorem out_congr (P : Params) {x x' h h' : Row} (ex : ∀ k, x k = x' k) (eh : ∀ k, h k = h' k) (q : Fin 128) :
    P.out x h q = P.out x' h' q := by
  rw [show x = x' from funext ex, show h = h' from funext eh]

/-- The cell of a row of a block is the cell of the matching row of the whole arrays, once the block's parameter
    arrays are the whole ones and its two rows are the arrays' rows. -/
theorem cell_congr {B0 B1 : S2048x128.Idx → EReal} {A0 A1 : S131072x128.Idx → EReal}
    {B2 A2 B3 A3 : S3x128x128.Idx → EReal} {B4 A4 : S6x128x128.Idx → EReal} {B5 A5 : S6x1x128.Idx → EReal}
    {B6 A6 : S128x128.Idx → EReal} (e2 : B2 = A2) (e3 : B3 = A3) (e4 : B4 = A4) (e5 : B5 = A5) (e6 : B6 = A6)
    (p : Fin 2048) (r : Fin 131072) (ex : ∀ k, B0 (ix2 p k) = A0 (ix2 r k)) (eh : ∀ k, B1 (ix2 p k) = A1 (ix2 r k)) (q : Fin 128) :
    (params B2 B3 B4 B5 B6).out (rowAt B0 p) (rowAt B1 p) q = batch (R := 131072) A0 A1 (params A2 A3 A4 A5 A6) (ix2 r q) := by
  subst e2 e3 e4 e5 e6
  exact out_congr _ ex eh q

/-- WHAT POINT t WRITES BACK is block t of the batch of cells over the whole arrays. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz2]
  simp only [View.ld_unit_zero (S := S2048x128) hz2, View.ld_unit_zero (S := S6x1x128) hz3,
    View.ld_unit_zero (S := S3x128x128) hz3, View.ld_unit_zero (S := S6x128x128) hz3, View.ld_unit_zero (S := S128x128) hz2]
  obtain ⟨-, -, -, -, -, -, -, -, -, -, -, -, -, -, -, -, -, -, e0, e1⟩ := idx_facts t
  funext j
  obtain ⟨p, q, rfl⟩ : ∃ (p : Fin 2048) (q : Fin 128), j = ix2 p q := ⟨j 0, j 1, eq_ix2 j⟩
  have hr : win0_7.index t (0 : Fin 2) * 2048 + 1 * p.val < 131072 := by have := t.isLt; rw [e0]; have : cfg0.N = 64 := N_0; omega
  have hq : win0_7.index t (1 : Fin 2) * 128 + 1 * q.val = q.val := by rw [e1]; omega
  show stored (iblk m c 0 t) (iblk m c 1 t) (iblk m c 2 t) (iblk m c 3 t) (iblk m c 4 t) (iblk m c 5 t) (iblk m c 6 t) (ix2 p q)
    = result m c (((cfg0.win 7).blk t).view.emb (ix2 p q))
  have hemb : ((cfg0.win 7).blk t).view.emb (ix2 p q) = ix2 (⟨win0_7.index t (0 : Fin 2) * 2048 + 1 * p.val, hr⟩ : Fin 131072) q := by
    funext a; apply Fin.ext
    match a with
    | ⟨0, _⟩ => rfl
    | ⟨1, _⟩ => exact hq
  have hrow : win0_7.index t (0 : Fin 2) * 2048 + 1 * p.val = t.val * 2048 + p.val := by rw [e0]; omega
  rw [hemb]
  exact (rows_stored (iblk m c 0 t) (iblk m c 1 t) (iblk m c 2 t) (iblk m c 3 t) (iblk m c 4 t) (iblk m c 5 t) (iblk m c 6 t) p q).trans
    (cell_congr (blockW1_eq m c t) (blockW2_eq m c t) (blockWh_eq m c t) (blockB_eq m c t) (blockMid_eq m c t) p
      (⟨win0_7.index t (0 : Fin 2) * 2048 + 1 * p.val, hr⟩ : Fin 131072)
      (fun k => blockX_apply m c t p k _ hrow) (fun k => blockH_apply m c t p k _ hrow) q)

/-- An index of the result array is in point t's block iff each coordinate is in the block's range on its axis. -/
theorem mem_blk (t : Fin cfg0.N) (i : S131072x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v0).slice (win0_7.rect t)).set ↔ _
  rw [View.set_slice_whole, Rect.mem_set_unit]
  exact Iff.rfl

/-- The 64 blocks cover the result array: row r lies in the block of point r / 2048. -/
theorem cover (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  have hN : cfg0.N = 64 := N_0
  let t : Fin cfg0.N := ⟨(i 0).val / 2048, by rw [hN]; omega⟩
  obtain ⟨-, -, -, -, -, -, -, -, -, -, -, -, -, -, -, -, -, -, e0, e1⟩ := idx_facts t
  have ht : t.val = (i 0).val / 2048 := rfl
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; rw [e0, ht]; omega
  | ⟨1, _⟩ => show win0_7.index t (1 : Fin 2) * 128 ≤ (i 1).val ∧ (i 1).val < win0_7.index t (1 : Fin 2) * 128 + 128; rw [e1]; omega

/-- THE RESULT ARRAY after the run is the batch of cells. -/
theorem final (c : Dev nD) : (dats m 0 c).arrAt 7 cfg0.N = result m c :=
  (dats m 0 c).arrAt_eq_of_cover 7 (result m c) (fun t _ => flushed_eq m c t) (cover)

/-- The kernel's run, read: the result array at the batch of cells of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.RefRows.lean ====
/-
  The reference program on the whole batch of 131072 rows, read row by row through its stages: every row of its
  result is the double GRU cell of that row of `x` and of the old state. The host spells the logistic function as
  1 / (1 + exp (-x)), which on the extended reals is the logistic function; its dot product is the plain sum over the
  contracted index; each weight matrix and bias row is cut out of its stack as in the kernel.
-/
import proofs.«120994_j24713241821345_1_alg».proof.Proof.Gen.ReferenceIdeal.Read
import proofs.«120994_j24713241821345_1_alg».proof.Proof.LibRowWise
import proofs.«120994_j24713241821345_1_alg».proof.Proof.GruRow

noncomputable section

namespace Cert.ReferenceIdeal.Stages

open Cert.ReferenceIdeal Cert.ReferenceIdeal.Gen Cert.ReferenceIdeal.Read
open Idealize.ShloMosaic Idealize.ShloMosaic.ValueIdx Idealize.ShloMosaic.RowWise Cert.Gru

/-- The reference's products are plain: rows of the left operand against columns of the right one. -/
theorem plain : PlainDot.IsPlain dot_S131072x128_S128x128_S131072x128_1_0_0_1_n_n := ⟨rfl, rfl, rfl, rfl, rfl, rfl⟩

/-- What every gate of the reference applies its nonlinearity to: two row-described operands through matrices cut out
    of two stacks, plus a bias row cut out of the bias stack and repeated down the batch. -/
theorem rows_pre {a c : FVec Ideal S131072x128 .f32} {A Cc : Fin 131072 → Row}
    (ha : Rows a A) (hc : Rows c Cc) {n1 n2 : ℕ}
    (W1 : FVec Ideal ⟨3, ![n1, 128, 128]⟩ .f32) (o1 : Fin n1) (hs1 : (⟨3, ![n1, 128, 128]⟩ : Shape).Slices ![o1.val, 0, 0] S1x128x128)
    (W2 : FVec Ideal ⟨3, ![n2, 128, 128]⟩ .f32) (o2 : Fin n2) (hs2 : (⟨3, ![n2, 128, 128]⟩ : Shape).Slices ![o2.val, 0, 0] S1x128x128)
    (b : FVec Ideal S6x1x128 .f32) (ob : Fin 6) (hsb : S6x1x128.Slices ![ob.val, 0, 0] S1x1x128) :
    Rows (addf (addf
        (Host.dotGeneral dot_S131072x128_S128x128_S131072x128_1_0_0_1_n_n none a
          (shapeCast S128x128 (extractStridedSlice S1x128x128 ![o1.val, 0, 0] W1 hs1) shapeCasts_S1x128x128_S128x128))
        (Host.dotGeneral dot_S131072x128_S128x128_S131072x128_1_0_0_1_n_n none c
          (shapeCast S128x128 (extractStridedSlice S1x128x128 ![o2.val, 0, 0] W2 hs2) shapeCasts_S1x128x128_S128x128)))
        (broadcastInDim S131072x128 ![0, 1] bcast_S1x128_S131072x128_0_1
          (shapeCast S1x128 (extractStridedSlice S1x1x128 ![ob.val, 0, 0] b hsb) shapeCasts_S1x1x128_S1x128)))
      fun p => pre (A p) (Cc p) (mats W1 o1) (mats W2 o2) (rowsOf b ob) :=
  rows_addf (rows_addf
      (rows_dotGeneral plain none ha (rows_stackedMatrix W1 o1 hs1 shapeCasts_S1x128x128_S128x128))
      (rows_dotGeneral plain none hc (rows_stackedMatrix W2 o2 hs2 shapeCasts_S1x128x128_S128x128)))
    (rows_hostStackedRow b ob hsb shapeCasts_S1x1x128_S1x128 bcast_S1x128_S131072x128_0_1)

variable (x0 x1 : FVec Ideal S131072x128 .f32) (x2 x3 : FVec Ideal S3x128x128 .f32) (x4 : FVec Ideal S6x128x128 .f32)
  (x5 : FVec Ideal S6x1x128 .f32) (x6 : FVec Ideal S128x128 .f32)

/-- The first stage's update gate. -/
theorem rows_z1 : Rows (val_main_v16 (F := Ideal) x0 x1 x2 x4 x5) fun p => (params x2 x3 x4 x5 x6).z1 (rowAt x0 p) (rowAt x1 p) :=
  rows_hostLogistic (rows_pre (rows_self x0) (rows_self x1) x2 0 _ x4 0 _ x5 0 _)
    (rows_hostConstant _ _) (rows_hostConstant _ _)

/-- The first stage's reset gate. -/
theorem rows_r1 : Rows (val_main_v33 (F := Ideal) x0 x1 x2 x4 x5) fun p => (params x2 x3 x4 x5 x6).r1 (rowAt x0 p) (rowAt x1 p) :=
  rows_hostLogistic (rows_pre (rows_self x0) (rows_self x1) x2 1 _ x4 1 _ x5 1 _)
    (rows_hostConstant _ _) (rows_hostConstant _ _)

/-- The state after the first stage. -/
theorem rows_midH : Rows (val_main_v51 (F := Ideal) x0 x1 x2 x4 x5) fun p => (params x2 x3 x4 x5 x6).midH (rowAt x0 p) (rowAt x1 p) :=
  rows_addf (rows_mulf (rows_z1 x0 x1 x2 x3 x4 x5 x6) (rows_self x1))
    (rows_mulf (rows_subf (rows_hostConstant _ _) (rows_z1 x0 x1 x2 x3 x4 x5 x6))
      (rows_hostTanh (rows_pre (rows_self x0) (rows_mulf (rows_r1 x0 x1 x2 x3 x4 x5 x6) (rows_self x1))
        x2 2 _ x4 2 _ x5 2 _)))

/-- The second stage's input: the positive part of the state through the middle matrix. -/
theorem rows_midX : Rows (val_main_v53 (F := Ideal) x0 x1 x2 x4 x5 x6) fun p => (params x2 x3 x4 x5 x6).midX (rowAt x0 p) (rowAt x1 p) :=
  rows_maximumf (rows_dotGeneral plain none (rows_midH x0 x1 x2 x3 x4 x5 x6) (rows_self x6)) (rows_hostConstant _ _)

/-- The second stage's update gate. -/
theorem rows_z2 : Rows (val_main_v70 (F := Ideal) x0 x1 x2 x3 x4 x5 x6) fun p => (params x2 x3 x4 x5 x6).z2 (rowAt x0 p) (rowAt x1 p) :=
  rows_hostLogistic (rows_pre (rows_midX x0 x1 x2 x3 x4 x5 x6) (rows_midH x0 x1 x2 x3 x4 x5 x6) x3 0 _ x4 0 _ x5 0 _)
    (rows_hostConstant _ _) (rows_hostConstant _ _)

/-- The second stage's reset gate applied to the state. -/
theorem rows_r2h : Rows (val_main_v91 (F := Ideal) x0 x1 x2 x3 x4 x5 x6) fun p =>
    gated ((params x2 x3 x4 x5 x6).r2 (rowAt x0 p) (rowAt x1 p)) ((params x2 x3 x4 x5 x6).midH (rowAt x0 p) (rowAt x1 p)) :=
  rows_mulf
    (rows_hostLogistic (rows_pre (rows_midX x0 x1 x2 x3 x4 x5 x6) (rows_midH x0 x1 x2 x3 x4 x5 x6) x3 1 _ x4 4 _ x5 4 _)
      (rows_hostConstant _ _) (rows_hostConstant _ _))
    (rows_midH x0 x1 x2 x3 x4 x5 x6)

/-- The reference's result, row by row: the cell of the row of `x` and the row of the old state. -/
theorem rows_out : Rows (val_main_v105 (F := Ideal) x0 x1 x2 x3 x4 x5 x6) fun p => (params x2 x3 x4 x5 x6).out (rowAt x0 p) (rowAt x1 p) :=
  rows_addf (rows_mulf (rows_z2 x0 x1 x2 x3 x4 x5 x6) (rows_midH x0 x1 x2 x3 x4 x5 x6))
    (rows_mulf (rows_subf (rows_hostConstant _ _) (rows_z2 x0 x1 x2 x3 x4 x5 x6))
      (rows_hostTanh (rows_pre (rows_midX x0 x1 x2 x3 x4 x5 x6) (rows_r2h x0 x1 x2 x3 x4 x5 x6) x3 2 _ x4 5 _ x5 5 _)))

/-- THE REFERENCE'S RESULT is the batch of cells. -/
theorem result_eq : val_main_v105 (F := Ideal) x0 x1 x2 x3 x4 x5 x6 = batch x0 x1 (params x2 x3 x4 x5 x6) :=
  (rows_out x0 x1 x2 x3 x4 x5 x6).ext fun _ _ => rfl

end Cert.ReferenceIdeal.Stages

end
-- ==== Proof.lean ====
/-
  The fused double GRU cell over a batch of 131072 rows of width 128, against its jnp reference: the five claims.

  Both programs compute, for every row of the batch, the same function of that row of `x`, that row of the old state
  and the parameter arrays: two gated stages (update gate, reset gate, tanh candidate, convex mix), the second fed by
  the positive part of the first stage's state through a 128 by 128 matrix. The kernel does it 2048 rows at a time,
  with its operands narrowed to bf16 before each product (the identity on the extended reals) and the logistic function
  as one operation; the reference does it on the whole batch, with the logistic function spelt 1 / (1 + exp (-x)),
  which on the extended reals is the same function at every argument. A product of a block of rows with a matrix is
  the block of rows of the product, so block t of the reference's result is what grid point t writes back, and the 64
  blocks tile the result array. No step uses that the inputs are finite: the two sides apply the same operations in
  the same order to the same entries.
-/
import proofs.«120994_j24713241821345_1_alg».proof.Defs
import proofs.«120994_j24713241821345_1_alg».proof.Proof.Gen.Kernel
import proofs.«120994_j24713241821345_1_alg».proof.Proof.Gen.Kernel.Skeleton
import proofs.«120994_j24713241821345_1_alg».proof.Proof.Gen.Kernel.Launch
import proofs.«120994_j24713241821345_1_alg».proof.Proof.Gen.Kernel.Points
import proofs.«120994_j24713241821345_1_alg».proof.Proof.Gen.Kernel.Frame
import proofs.«120994_j24713241821345_1_alg».proof.Proof.Gen.KernelIdeal
import proofs.«120994_j24713241821345_1_alg».proof.Proof.Gen.KernelIdeal.Skeleton
import proofs.«120994_j24713241821345_1_alg».proof.Proof.Gen.KernelIdeal.Launch
import proofs.«120994_j24713241821345_1_alg».proof.Proof.Gen.KernelIdeal.Points
import proofs.«120994_j24713241821345_1_alg».proof.Proof.Gen.KernelIdeal.Frame
import proofs.«120994_j24713241821345_1_alg».proof.Proof.Gen.ReferenceIdeal
import proofs.«120994_j24713241821345_1_alg».proof.Proof.Gen.Pre_finite_inputs
import proofs.«120994_j24713241821345_1_alg».proof.Proof.Gen.KernelIdeal.Value
import proofs.«120994_j24713241821345_1_alg».proof.Proof.Gen.ReferenceIdeal.Run
import proofs.«120994_j24713241821345_1_alg».proof.Proof.Gen.ReferenceIdeal.Read
import proofs.«120994_j24713241821345_1_alg».proof.Proof.Blocks
import proofs.«120994_j24713241821345_1_alg».proof.Proof.RefRows
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the batch of cells of its argument arrays; the reference's result is the batch
    of cells of its own; the arguments agree, so the two results are equal entry by entry. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v105_eq m' c).trans ?_
  refine (Cert.ReferenceIdeal.Stages.result_eq _ _ _ _ _ _ _).trans ?_
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
